-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40x128 .f32) (main_arg9 : FVec F S40 .f32) (main_v33 : IVec S_ 1) : IVec S_ 1 :=
  let main_v34 : FVec F S40x128 .f32 := Host.absf main_arg8
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S40x128 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S40x128 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S1x40 : Shape := ⟨2, ![1, 40]⟩
abbrev S100000x40 : Shape := ⟨2, ![100000, 40]⟩
abbrev S2000x40 : Shape := ⟨2, ![2000, 40]⟩
abbrev S128x40 : Shape := ⟨2, ![128, 40]⟩

abbrev nBuf : Space → Nat
  | .hbm => 70
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S40x128, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S1x40, .f32⟩
  | .hbm, ⟨69, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S40x128, .f32⟩
  | .local _ .vmem, ⟨21, _⟩ => ⟨S1x40, .f32⟩
  | .local _ .vmem, ⟨22, _⟩ => ⟨S2000x40, .f32⟩
  | .local _ .vmem, ⟨23, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S40_S1x40 : S40.ShapeCasts S1x40
  inb_S40x128_S40x128_0_0 : ∀ a, (![0, 0] : Fin 2 → Nat) a + S40x128.size a ≤ S40x128.size a
  h_S40x128 : 0 < S40x128.numel
  transposes_S40x128_p1_0_S128x40 : S40x128.Transposes [1, 0] S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40x128.size a ≤ S40x128.size a
  hwx2_1 : ∀ i : grid2.Coords, EltTy.bits .f32 = 32 ∨ (Rect.block (s := S40x128) S40x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S100000x40.size a
  hwx2_3 : ∀ i : grid2.Coords, EltTy.bits .f32 = 32 ∨ (Rect.block (s := S100000x40) S2000x40.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S40x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S40x128, .f32⟩
  | .hbm, ⟨9, _⟩ => ⟨S40, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S128x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S100000x128, .f32⟩
  | .hbm, ⟨85, _⟩ => ⟨S100000x128, .f32⟩
  | .hbm, ⟨86, _⟩ => ⟨S128x40, .f32⟩
  | .hbm, ⟨87, _⟩ => ⟨S100000x40, .f32⟩
  | .hbm, ⟨88, _⟩ => ⟨S1x40, .f32⟩
  | .hbm, ⟨89, _⟩ => ⟨S100000x40, .f32⟩
  | .hbm, ⟨90, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The mathematics both programs compute, index by index, on the extended reals.

  A mean-aggregating graph layer takes the neighbour means `mean` and the node features `x` (both nodes × 128) and
  returns, at node `p` and output feature `q`,
      max ( Σₖ mean[p,k]·Wl[q,k] + Σₖ x[p,k]·Wr[q,k] + bl[q] , 0 )
  (two products with transposed weights, a bias, a rectifier). The classifier head returns
      Σₖ h[p,k]·W[q,k] + b[q].
  One program adds the bias last, the other between the two products; on the extended reals addition is a
  commutative monoid, so the two orders agree at every entry, infinite ones included (`sageAt_mid`).
-/
import Idealize.ShloMosaic.PureOps.Ideal
import Idealize.ShloMosaic.Lib.ValueIdx

noncomputable section

open scoped BigOperators

namespace Cert.Sage

open Idealize.ShloMosaic Idealize.ShloMosaic.ValueIdx

/-- nodes × features -/
abbrev SNxD : Shape := ⟨2, ![100000, 128]⟩
/-- a square weight matrix, output feature × input feature -/
abbrev SDxD : Shape := ⟨2, ![128, 128]⟩
/-- the classifier's weight matrix, class × feature -/
abbrev SCxD : Shape := ⟨2, ![40, 128]⟩
/-- nodes × classes -/
abbrev SNxC : Shape := ⟨2, ![100000, 40]⟩

/-- One entry of a layer's output: node `p`, output feature `q`; the bias added after both products. -/
def sageAt (mean x : SNxD.Idx → EReal) (Wl : SDxD.Idx → EReal) (bl : Fin 128 → EReal) (Wr : SDxD.Idx → EReal)
    (p : Fin 100000) (q : Fin 128) : EReal :=
  max (((∑ k : Fin 128, mean (ix2 p k) * Wl (ix2 q k)) + (∑ k : Fin 128, x (ix2 p k) * Wr (ix2 q k))) + bl q) 0

/-- The layer's whole output array. -/
def sage (mean x : SNxD.Idx → EReal) (Wl : SDxD.Idx → EReal) (bl : Fin 128 → EReal) (Wr : SDxD.Idx → EReal) :
    SNxD.Idx → EReal :=
  fun i => sageAt mean x Wl bl Wr (i 0) (i 1)

/-- The same entry with the bias added between the two products: equal, since `+` on the extended reals is
    commutative and associative. -/
theorem sageAt_mid (mean x : SNxD.Idx → EReal) (Wl : SDxD.Idx → EReal) (bl : Fin 128 → EReal) (Wr : SDxD.Idx → EReal)
    (p : Fin 100000) (q : Fin 128) :
    max (((∑ k : Fin 128, mean (ix2 p k) * Wl (ix2 q k)) + bl q) + (∑ k : Fin 128, x (ix2 p k) * Wr (ix2 q k))) 0
      = sageAt mean x Wl bl Wr p q := by
  unfold sageAt
  rw [add_right_comm]

/-- One entry of the classifier's output: node `p`, class `q`. -/
def headAt (h : SNxD.Idx → EReal) (W : SCxD.Idx → EReal) (b : Fin 40 → EReal) (p : Fin 100000) (q : Fin 40) : EReal :=
  (∑ k : Fin 128, h (ix2 p k) * W (ix2 q k)) + b q

/-- The classifier's whole output array. -/
def head (h : SNxD.Idx → EReal) (W : SCxD.Idx → EReal) (b : Fin 40 → EReal) : SNxC.Idx → EReal :=
  fun i => headAt h W b (i 0) (i 1)

theorem sage_ix2 (mean x : SNxD.Idx → EReal) (Wl : SDxD.Idx → EReal) (bl : Fin 128 → EReal) (Wr : SDxD.Idx → EReal)
    (p : Fin 100000) (q : Fin 128) : sage mean x Wl bl Wr (ix2 p q) = sageAt mean x Wl bl Wr p q := rfl

theorem head_ix2 (h : SNxD.Idx → EReal) (W : SCxD.Idx → EReal) (b : Fin 40 → EReal) (p : Fin 100000) (q : Fin 40) :
    head h W b (ix2 p q) = headAt h W b p q := rfl

end Cert.Sage

end
-- ==== Proof.MatUnit.lean ====
/-
  The layer kernels' matrix-unit product at an entry.

  Both layer kernels multiply a 2000 × 128 block of rows by a 128 × 128 weight matrix that the body transposes first,
  into a zero accumulator. At entry (p, q) that is  Σₖ a[p,k]·W[q,k]  over the 128 shared coordinates: the dimension
  numbers contract the left operand's axis 1 with the right operand's axis 0, and the transposed matrix at (k, q) is
  the matrix at (q, k).
-/
import proofs.«170277_j13597866459807_1_alg».proof.Proof.Gen.KernelIdeal
import Idealize.ShloMosaic.Lib.Pipeline.Value
import Idealize.ShloMosaic.Lib.ValueIdx
import Idealize.ShloMosaic.PureOps.Ideal.Laws

noncomputable section

open scoped BigOperators

namespace Cert.KernelIdeal.MatUnit

open Cert.KernelIdeal Cert.KernelIdeal.Gen Idealize.ShloMosaic
open Idealize.ShloMosaic.ValueIdx

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Row `p` of the left operand against row `q` of the (untransposed) weight matrix: the product with the
    transposed matrix, into a zero accumulator, is the sum over the 128 shared coordinates. -/
theorem mm_apply (a : FVec Ideal S2000x128 .bf16) (w : FVec Ideal S128x128 .bf16) (p : Fin 2000) (q : Fin 128) :
    matmul dot_S2000x128_S128x128_S2000x128_1_0_0_1_n_n none a (transpose S128x128 [1, 0] w transposes_S128x128_p1_0_S128x128)
        (constant (F := Ideal) S2000x128 .f32 0x00000000#32) (ix2 p q)
      = ∑ k : Fin 128, a (ix2 p k) * w (ix2 q k) := by
  refine (Ideal.matmul_constant_zero_apply dot_S2000x128_S128x128_S2000x128_1_0_0_1_n_n none a _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun b => Fin.ext (by
    match b with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun b => Fin.ext (by
    match b with
    | ⟨0, _⟩ => exact (rhs_axis0 _ _).trans hk
    | ⟨1, _⟩ => exact rhs_axis1 _ _)
  rw [el, er]
  refine congrArg (a (ix2 p k) * ·) ?_
  exact transpose_apply [1, 0] w transposes_S128x128_p1_0_S128x128 (ix2 k q) (ix2 q k) (fun b => match b with
    | ⟨0, _⟩ => rfl
    | ⟨1, _⟩ => rfl)

end Cert.KernelIdeal.MatUnit

end
-- ==== Proof.Region0.lean ====
/-
  The first layer kernel: what its output array holds after the region.

  The region runs 50 grid points; point `t` stages rows 2000t … 2000t+1999 of the neighbour means and of the node
  features, the two whole weight matrices and the bias row, and writes back rows 2000t … 2000t+1999 of the output.
  The body's arithmetic at entry (p, q) of a block — two products of a row with a row of a weight matrix (the
  transposes in the body turn `W[q,·]` into a column), the bias entry, the rectifier — is entry (2000t + p, q) of ONE
  whole-array function of the five arrays, because the contraction axis is never tiled. The 50 row blocks tile the
  array, so the array after the region is that function.
-/
import proofs.«170277_j13597866459807_1_alg».proof.Proof.Gen.KernelIdeal.Frame
import proofs.«170277_j13597866459807_1_alg».proof.Proof.Spec
import proofs.«170277_j13597866459807_1_alg».proof.Proof.MatUnit
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx Cert.KernelIdeal.MatUnit
open Idealize.ShloMosaic.Pipeline (Dat)

variable (V : (c : Dev nD) → (b : Ref sig .tc) → Buf (Elt Ideal) ((c : Thread nD τ).loc b))

/-! ## The body's arithmetic at an entry of the block -/

/-- Entry `(p, q)` of what the body stores: both products over the 128 features, the bias row's entry `q`, and the
    rectifier. The narrowing casts before the matrix unit are the identity on extended reals. -/
theorem pay_apply (v0 v3 : Vec Ideal S2000x128 .f32) (v5 v7 : Vec Ideal S128x128 .f32) (v14 : Vec Ideal S1x128 .f32)
    (p : Fin 2000) (q : Fin 128) :
    k0_pay1 v0 v3 v5 v7 v14 (ix2 p q)
      = max (((∑ k : Fin 128, v0 (ix2 p k) * v5 (ix2 q k)) + (∑ k : Fin 128, v3 (ix2 p k) * v7 (ix2 q k)))
          + v14 (ix2 (0 : Fin 1) q)) 0 := by
  unfold k0_pay1
  simp only [shapeCast_self]
  rw [maximumf_apply, addf_apply, addf_apply, mm_apply, mm_apply]
  have hb : broadcastTo S2000x128 v14 broadcasts_S1x128_S2000x128 (ix2 p q) = v14 (ix2 (0 : Fin 1) q) :=
    broadcastTo_apply v14 broadcasts_S1x128_S2000x128 (ix2 p q) (ix2 (0 : Fin 1) q) (fun a => match a with
      | ⟨0, _⟩ => by show (0 : ℕ) = if (1 : Nat) = 1 then 0 else p.val; rw [if_pos rfl]
      | ⟨1, _⟩ => by show q.val = if (128 : Nat) = 1 then 0 else q.val; rw [if_neg (by decide)])
  rw [hb, broadcast_apply]
  simp only [truncf_apply]
  show max _ (Ideal.ofBits .f32 0x00000000#32) = _
  rw [Ideal.ofBits_zero_f32]

/-! ## What a grid point writes back is a block of the layer's whole-array function -/

theorem hz : (![0, 0] : Fin 2 → Nat) = fun _ => 0 := funext fun a => by fin_cases a <;> rfl

/-- The printed index maps, decided over the 50 grid points: the two row-tiled inputs move with the output's row
    block, on the feature axis every window sits at block 0, and the weights and the bias never move. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) = t.val :=
  (by decide +kernel : ∀ t : Fin grid0.N, _)

theorem flushed_eq (c : Dev nD) (t : Fin cfg0.N) :
    (dat0 (F := Ideal) V c).flushed 5 t = ((cfg0.win 5).blk t).view.read (Elt Ideal)
      (Cert.Sage.sage (V c main_v22) (V c main_arg0) (V c main_arg2) (fun q => V c main_v23 (ix2 (0 : Fin 1) q)) (V c main_arg4)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11⟩ := idx_facts t
  have ht : t.val < 50 := lt_of_lt_of_eq t.isLt N_0
  show (k0_pay1 (iblk0 V c 0 t) (iblk0 V c 1 t) (iblk0 V c 2 t) (iblk0 V c 4 t) (iblk0 V c 3 t) : S2000x128.Idx → EReal)
    = fun y : S2000x128.Idx => Cert.Sage.sage (V c main_v22) (V c main_arg0) (V c main_arg2) (fun q => V c main_v23 (ix2 (0 : Fin 1) q)) (V c main_arg4)
        (((cfg0.win 5).blk t).view.emb y)
  funext y
  obtain ⟨p, q, rfl⟩ : ∃ (p : Fin 2000) (q : Fin 128), y = ix2 p q := ⟨y 0, y 1, eq_ix2 y⟩
  refine (pay_apply (iblk0 V c 0 t) (iblk0 V c 1 t) (iblk0 V c 2 t) (iblk0 V c 4 t) (iblk0 V c 3 t) p q).trans ?_
  -- the row of the whole array that row `p` of block `t` is
  have hP : t.val * 2000 + p.val < 100000 := by have := p.isLt; omega
  have hout : ((cfg0.win 5).blk t).view.emb (ix2 p q) = ix2 (⟨t.val * 2000 + p.val, hP⟩ : Fin 100000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  rw [hout, Cert.Sage.sage_ix2]
  unfold Cert.Sage.sageAt
  have r0 : ∀ k : Fin 128, iblk0 V c 0 t (ix2 p k) = V c main_v22 (ix2 (⟨t.val * 2000 + p.val, hP⟩ : Fin 100000) k) := fun k => by
    show V c main_v22 (((cfg0.win 0).blk t).view.emb (ix2 p k)) = _
    refine congrArg (V c main_v22) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have r1 : ∀ k : Fin 128, iblk0 V c 1 t (ix2 p k) = V c main_arg0 (ix2 (⟨t.val * 2000 + p.val, hP⟩ : Fin 100000) k) := fun k => by
    show V c main_arg0 (((cfg0.win 1).blk t).view.emb (ix2 p k)) = _
    refine congrArg (V c main_arg0) (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  have r2 : ∀ k : Fin 128, iblk0 V c 2 t (ix2 q k) = V c main_arg2 (ix2 q k) := fun k => by
    show V c main_arg2 (((cfg0.win 2).blk t).view.emb (ix2 q k)) = _
    refine congrArg (V c main_arg2) (funext fun a => Fin.ext ?_)
    match a with
    | ⟨0, _⟩ => show win0_2.index t (0 : Fin 2) * 128 + 1 * q.val = q.val; omega
    | ⟨1, _⟩ => show win0_2.index t (1 : Fin 2) * 128 + 1 * k.val = k.val; omega
  have r4 : ∀ k : Fin 128, iblk0 V c 4 t (ix2 q k) = V c main_arg4 (ix2 q k) := fun k => by
    show V c main_arg4 (((cfg0.win 4).blk t).view.emb (ix2 q k)) = _
    refine congrArg (V c main_arg4) (funext fun a => Fin.ext ?_)
    match a with
    | ⟨0, _⟩ => show win0_4.index t (0 : Fin 2) * 128 + 1 * q.val = q.val; omega
    | ⟨1, _⟩ => show win0_4.index t (1 : Fin 2) * 128 + 1 * k.val = k.val; omega
  have r3 : iblk0 V c 3 t (ix2 (0 : Fin 1) q) = V c main_v23 (ix2 (0 : Fin 1) q) := by
    show V c main_v23 (((cfg0.win 3).blk t).view.emb (ix2 (0 : Fin 1) q)) = _
    refine congrArg (V c main_v23) (funext fun a => Fin.ext ?_)
    match a with
    | ⟨0, _⟩ => show win0_3.index t (0 : Fin 2) * 1 + 1 * 0 = 0; omega
    | ⟨1, _⟩ => show win0_3.index t (1 : Fin 2) * 128 + 1 * q.val = q.val; omega
  simp only [r0, r1, r2, r4, r3]

/-! ## The blocks tile the array: the array after the region -/

/-- An index of the array lies in point `t`'s block iff each coordinate lies in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v24).slice (win0_5.rect t)).set ↔ _
  rw [View.set_slice_whole, Rect.mem_set_unit]
  exact Iff.rfl

/-- Row `r` is written by grid point `r / 2000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have htlt : (i 0).val / 2000 < cfg0.N := by rw [hN]; omega
  obtain ⟨-, -, -, -, -, -, -, -, -, -, e10, e11⟩ := idx_facts ⟨(i 0).val / 2000, htlt⟩
  refine ⟨⟨(i 0).val / 2000, htlt⟩, flush0_5 _, ?_⟩
  rw [mem_blk]
  intro a
  match a with
  | ⟨0, _⟩ =>
    show win0_5.index ⟨(i 0).val / 2000, htlt⟩ (0 : Fin 2) * 2000 ≤ (i 0).val ∧ (i 0).val < win0_5.index ⟨(i 0).val / 2000, htlt⟩ (0 : Fin 2) * 2000 + 2000
    rw [e11]; show (i 0).val / 2000 * 2000 ≤ (i 0).val ∧ (i 0).val < (i 0).val / 2000 * 2000 + 2000; omega
  | ⟨1, _⟩ =>
    show win0_5.index ⟨(i 0).val / 2000, htlt⟩ (1 : Fin 2) * 128 ≤ (i 1).val ∧ (i 1).val < win0_5.index ⟨(i 0).val / 2000, htlt⟩ (1 : Fin 2) * 128 + 128
    rw [e10]; omega

/-- After the region the output array is the layer's function of the arrays the region found. -/
theorem final (c : Dev nD) :
    (dat0 (F := Ideal) V c).arrAt 5 cfg0.N
      = Cert.Sage.sage (V c main_v22) (V c main_arg0) (V c main_arg2) (fun q => V c main_v23 (ix2 (0 : Fin 1) q)) (V c main_arg4) :=
  (dat0 V c).arrAt_eq_of_cover 5 _ (fun t _ => flushed_eq V c t) cover

end Cert.KernelIdeal.Region0

end
-- ==== Proof.Region1.lean ====
/-
  The second layer kernel: what its output array holds after the region.

  The region runs 50 grid points; point `t` stages rows 2000t … 2000t+1999 of the neighbour means and of the node
  features, the two whole weight matrices and the bias row, and writes back rows 2000t … 2000t+1999 of the output.
  The body's arithmetic at entry (p, q) of a block — two products of a row with a row of a weight matrix (the
  transposes in the body turn `W[q,·]` into a column), the bias entry, the rectifier — is entry (2000t + p, q) of ONE
  whole-array function of the five arrays, because the contraction axis is never tiled. The 50 row blocks tile the
  array, so the array after the region is that function.
-/
import proofs.«170277_j13597866459807_1_alg».proof.Proof.Gen.KernelIdeal.Frame
import proofs.«170277_j13597866459807_1_alg».proof.Proof.Spec
import proofs.«170277_j13597866459807_1_alg».proof.Proof.MatUnit
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx Cert.KernelIdeal.MatUnit
open Idealize.ShloMosaic.Pipeline (Dat)

variable (V : (c : Dev nD) → (b : Ref sig .tc) → Buf (Elt Ideal) ((c : Thread nD τ).loc b))

/-! ## The body's arithmetic at an entry of the block -/

/-- Entry `(p, q)` of what the body stores: both products over the 128 features, the bias row's entry `q`, and the
    rectifier. The narrowing casts before the matrix unit are the identity on extended reals. -/
theorem pay_apply (v0 v3 : Vec Ideal S2000x128 .f32) (v5 v7 : Vec Ideal S128x128 .f32) (v14 : Vec Ideal S1x128 .f32)
    (p : Fin 2000) (q : Fin 128) :
    k1_pay1 v0 v3 v5 v7 v14 (ix2 p q)
      = max (((∑ k : Fin 128, v0 (ix2 p k) * v5 (ix2 q k)) + (∑ k : Fin 128, v3 (ix2 p k) * v7 (ix2 q k)))
          + v14 (ix2 (0 : Fin 1) q)) 0 := by
  unfold k1_pay1
  simp only [shapeCast_self]
  rw [maximumf_apply, addf_apply, addf_apply, mm_apply, mm_apply]
  have hb : broadcastTo S2000x128 v14 broadcasts_S1x128_S2000x128 (ix2 p q) = v14 (ix2 (0 : Fin 1) q) :=
    broadcastTo_apply v14 broadcasts_S1x128_S2000x128 (ix2 p q) (ix2 (0 : Fin 1) q) (fun a => match a with
      | ⟨0, _⟩ => by show (0 : ℕ) = if (1 : Nat) = 1 then 0 else p.val; rw [if_pos rfl]
      | ⟨1, _⟩ => by show q.val = if (128 : Nat) = 1 then 0 else q.val; rw [if_neg (by decide)])
  rw [hb, broadcast_apply]
  simp only [truncf_apply]
  show max _ (Ideal.ofBits .f32 0x00000000#32) = _
  rw [Ideal.ofBits_zero_f32]

/-! ## What a grid point writes back is a block of the layer's whole-array function -/

theorem hz : (![0, 0] : Fin 2 → Nat) = fun _ => 0 := funext fun a => by fin_cases a <;> rfl

/-- The printed index maps, decided over the 50 grid points: the two row-tiled inputs move with the output's row
    block, on the feature axis every window sits at block 0, and the weights and the bias never move. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) = t.val :=
  (by decide +kernel : ∀ t : Fin grid1.N, _)

theorem flushed_eq (c : Dev nD) (t : Fin cfg1.N) :
    (dat1 (F := Ideal) V c).flushed 5 t = ((cfg1.win 5).blk t).view.read (Elt Ideal)
      (Cert.Sage.sage (V c main_v43) (V c main_v24) (V c main_arg5) (fun q => V c main_v44 (ix2 (0 : Fin 1) q)) (V c main_arg7)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e0, e1, e2, e3, e4, e5, e6, e7, e8, e9, e10, e11⟩ := idx_facts t
  have ht : t.val < 50 := lt_of_lt_of_eq t.isLt N_1
  show (k1_pay1 (iblk1 V c 0 t) (iblk1 V c 1 t) (iblk1 V c 2 t) (iblk1 V c 4 t) (iblk1 V c 3 t) : S2000x128.Idx → EReal)
    = fun y : S2000x128.Idx => Cert.Sage.sage (V c main_v43) (V c main_v24) (V c main_arg5) (fun q => V c main_v44 (ix2 (0 : Fin 1) q)) (V c main_arg7)
        (((cfg1.win 5).blk t).view.emb y)
  funext y
  obtain ⟨p, q, rfl⟩ : ∃ (p : Fin 2000) (q : Fin 128), y = ix2 p q := ⟨y 0, y 1, eq_ix2 y⟩
  refine (pay_apply (iblk1 V c 0 t) (iblk1 V c 1 t) (iblk1 V c 2 t) (iblk1 V c 4 t) (iblk1 V c 3 t) p q).trans ?_
  -- the row of the whole array that row `p` of block `t` is
  have hP : t.val * 2000 + p.val < 100000 := by have := p.isLt; omega
  have hout : ((cfg1.win 5).blk t).view.emb (ix2 p q) = ix2 (⟨t.val * 2000 + p.val, hP⟩ : Fin 100000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  rw [hout, Cert.Sage.sage_ix2]
  unfold Cert.Sage.sageAt
  have r0 : ∀ k : Fin 128, iblk1 V c 0 t (ix2 p k) = V c main_v43 (ix2 (⟨t.val * 2000 + p.val, hP⟩ : Fin 100000) k) := fun k => by
    show V c main_v43 (((cfg1.win 0).blk t).view.emb (ix2 p k)) = _
    refine congrArg (V c main_v43) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  have r1 : ∀ k : Fin 128, iblk1 V c 1 t (ix2 p k) = V c main_v24 (ix2 (⟨t.val * 2000 + p.val, hP⟩ : Fin 100000) k) := fun k => by
    show V c main_v24 (((cfg1.win 1).blk t).view.emb (ix2 p k)) = _
    refine congrArg (V c main_v24) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  have r2 : ∀ k : Fin 128, iblk1 V c 2 t (ix2 q k) = V c main_arg5 (ix2 q k) := fun k => by
    show V c main_arg5 (((cfg1.win 2).blk t).view.emb (ix2 q k)) = _
    refine congrArg (V c main_arg5) (funext fun a => Fin.ext ?_)
    match a with
    | ⟨0, _⟩ => show win1_2.index t (0 : Fin 2) * 128 + 1 * q.val = q.val; omega
    | ⟨1, _⟩ => show win1_2.index t (1 : Fin 2) * 128 + 1 * k.val = k.val; omega
  have r4 : ∀ k : Fin 128, iblk1 V c 4 t (ix2 q k) = V c main_arg7 (ix2 q k) := fun k => by
    show V c main_arg7 (((cfg1.win 4).blk t).view.emb (ix2 q k)) = _
    refine congrArg (V c main_arg7) (funext fun a => Fin.ext ?_)
    match a with
    | ⟨0, _⟩ => show win1_4.index t (0 : Fin 2) * 128 + 1 * q.val = q.val; omega
    | ⟨1, _⟩ => show win1_4.index t (1 : Fin 2) * 128 + 1 * k.val = k.val; omega
  have r3 : iblk1 V c 3 t (ix2 (0 : Fin 1) q) = V c main_v44 (ix2 (0 : Fin 1) q) := by
    show V c main_v44 (((cfg1.win 3).blk t).view.emb (ix2 (0 : Fin 1) q)) = _
    refine congrArg (V c main_v44) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  simp only [r0, r1, r2, r4, r3]

/-! ## The blocks tile the array: the array after the region -/

/-- An index of the array lies in point `t`'s block iff each coordinate lies in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- Row `r` is written by grid point `r / 2000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have htlt : (i 0).val / 2000 < cfg1.N := by rw [hN]; omega
  obtain ⟨-, -, -, -, -, -, -, -, -, -, e10, e11⟩ := idx_facts ⟨(i 0).val / 2000, htlt⟩
  refine ⟨⟨(i 0).val / 2000, htlt⟩, flush1_5 _, ?_⟩
  rw [mem_blk]
  intro a
  match a with
  | ⟨0, _⟩ =>
    show win1_5.index ⟨(i 0).val / 2000, htlt⟩ (0 : Fin 2) * 2000 ≤ (i 0).val ∧ (i 0).val < win1_5.index ⟨(i 0).val / 2000, htlt⟩ (0 : Fin 2) * 2000 + 2000
    rw [e11]; show (i 0).val / 2000 * 2000 ≤ (i 0).val ∧ (i 0).val < (i 0).val / 2000 * 2000 + 2000; omega
  | ⟨1, _⟩ =>
    show win1_5.index ⟨(i 0).val / 2000, htlt⟩ (1 : Fin 2) * 128 ≤ (i 1).val ∧ (i 1).val < win1_5.index ⟨(i 0).val / 2000, htlt⟩ (1 : Fin 2) * 128 + 128
    rw [e10]; omega

/-- After the region the output array is the layer's function of the arrays the region found. -/
theorem final (c : Dev nD) :
    (dat1 (F := Ideal) V c).arrAt 5 cfg1.N
      = Cert.Sage.sage (V c main_v43) (V c main_v24) (V c main_arg5) (fun q => V c main_v44 (ix2 (0 : Fin 1) q)) (V c main_arg7) :=
  (dat1 V c).arrAt_eq_of_cover 5 _ (fun t _ => flushed_eq V c t) cover

end Cert.KernelIdeal.Region1

end
-- ==== Proof.Region2.lean ====
import proofs.«170277_j13597866459807_1_alg».proof.Proof.Gen.KernelIdeal.Frame
import proofs.«170277_j13597866459807_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The classifier block's product, one entry at a time

The block product contracts axis 1 of the 2000 × 128 left operand with axis 0 of the 128 × 40 right operand; at output
entry (p, q) and contraction coordinate k the left operand is read at (p, k) and the right at (k, q). -/

theorem lhs_head_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs_head_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem rhs_head_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem rhs_head_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- The block's payload at entry (p, q): the 128-term product of row p of the features with row q of the weights (the
    weights enter transposed, and narrowing the format is the identity on the extended reals), plus the bias at q (the
    one-row bias is repeated down the 2000 rows). -/
theorem pay_apply (v0 : Vec Ideal S2000x128 .f32) (v3 : Vec Ideal S40x128 .f32) (v7 : Vec Ideal S1x40 .f32) (p : Fin 2000) (q : Fin 40) :
    k2_pay1 v0 v3 v7 (ix2 p q) = (∑ k : Fin 128, v0 (ix2 p k) * v3 (ix2 q k)) + v7 (ix2 (0 : Fin 1) q) := by
  unfold k2_pay1
  rw [addf_apply]
  have hsum : matmul dot_S2000x128_S128x40_S2000x40_1_0_0_1_n_n none
        (truncf .bf16 (shapeCast S2000x128 v0 shapeCasts_S2000x128_S2000x128) bitsLt_bf16_f32)
        (transpose S128x40 [1, 0] (truncf .bf16 v3 bitsLt_bf16_f32) transposes_S40x128_p1_0_S128x40)
        (constant (F := Ideal) S2000x40 .f32 0x00000000#32) (ix2 p q)
      = ∑ k : Fin 128, v0 (ix2 p k) * v3 (ix2 q k) := by
    refine (Ideal.matmul_constant_zero_apply dot_S2000x128_S128x40_S2000x40_1_0_0_1_n_n none _ _ (ix2 p q)).trans ?_
    rw [← Equiv.sum_comp (contrEquiv1 dot_S2000x128_S128x40_S2000x40_1_0_0_1_n_n 128 rfl rfl).symm]
    refine Finset.sum_congr rfl fun k _ => ?_
    have hk := contrEquiv1_symm_val dot_S2000x128_S128x40_S2000x40_1_0_0_1_n_n 128 rfl rfl k
    have el : dot_S2000x128_S128x40_S2000x40_1_0_0_1_n_n.lhsIdx (ix2 p q) ((contrEquiv1 dot_S2000x128_S128x40_S2000x40_1_0_0_1_n_n 128 rfl rfl).symm k) = (ix2 p k : S2000x128.Idx) := funext fun a => Fin.ext (by
      match a with
      | ⟨0, _⟩ => exact lhs_head_0 _ _
      | ⟨1, _⟩ => exact (lhs_head_1 _ _).trans hk)
    have er : dot_S2000x128_S128x40_S2000x40_1_0_0_1_n_n.rhsIdx (ix2 p q) ((contrEquiv1 dot_S2000x128_S128x40_S2000x40_1_0_0_1_n_n 128 rfl rfl).symm k) = (ix2 k q : S128x40.Idx) := funext fun a => Fin.ext (by
      match a with
      | ⟨0, _⟩ => exact (rhs_head_0 _ _).trans hk
      | ⟨1, _⟩ => exact rhs_head_1 _ _)
    rw [el, er, truncf_apply, shapeCast_self]
    exact congrArg (v0 (ix2 p k) * ·) (transpose_apply [1, 0] _ transposes_S40x128_p1_0_S128x40 (ix2 k q) (ix2 q k) (fun b => match b with
      | ⟨0, _⟩ => rfl
      | ⟨1, _⟩ => rfl))
  have hbias : broadcastTo S2000x40 (shapeCast S1x40 v7 shapeCasts_S1x40_S1x40) broadcasts_S1x40_S2000x40 (ix2 p q) = v7 (ix2 (0 : Fin 1) q) := by
    rw [shapeCast_self]
    exact broadcastTo_apply v7 broadcasts_S1x40_S2000x40 (ix2 p q) (ix2 (0 : Fin 1) q) (fun a => match a with
      | ⟨0, _⟩ => rfl
      | ⟨1, _⟩ => rfl)
  rw [hsum, hbias]

/-! ## From the blocks to the array

Point t of the grid of 50 handles rows 2000·t … 2000·t + 1999: the features' block and the output's block sit at block
row t, the weights and the bias are whole-array blocks at block (0, 0). -/

theorem zeros2 : (![0, 0] : Fin 2 → Nat) = fun _ => 0 := funext fun a => match a with | ⟨0, _⟩ => rfl | ⟨1, _⟩ => rfl

/-- The printed index maps, decided over the grid. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 50 := lt_of_lt_of_eq t.isLt N_2

/-- Row p of point t's block is row 2000·t + p of the array. -/
def rowOf (t : Fin cfg2.N) (p : Fin 2000) : Fin 100000 :=
  ⟨t.val * 2000 + p.val, by have := point_lt t; have := p.isLt; omega⟩

variable (V : (c : Dev nD) → (b : Ref sig .tc) → Buf (Elt Ideal) ((c : Thread nD τ).loc b))

/-- The features' block at point t, entry (p, k), is the array at (2000·t + p, k). -/
theorem feat_read (c : Dev nD) (t : Fin cfg2.N) (p : Fin 2000) (k : Fin 128) :
    iblk2 V c 0 t (ix2 p k) = V c main_v45 (ix2 (rowOf t p) k) := by
  show V c main_v45 (((cfg2.win 0).blk t).view.emb (ix2 p k)) = V c main_v45 (ix2 (rowOf t p) k)
  obtain ⟨e0, e1, -⟩ := idx_facts t
  refine congrArg (V c main_v45) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

/-- The weights' block at every point is the whole array. -/
theorem wts_read (c : Dev nD) (t : Fin cfg2.N) (q : Fin 40) (k : Fin 128) :
    iblk2 V c 1 t (ix2 q k) = V c main_arg8 (ix2 q k) := by
  show V c main_arg8 (((cfg2.win 1).blk t).view.emb (ix2 q k)) = V c main_arg8 (ix2 q k)
  obtain ⟨-, -, e0, e1, -⟩ := idx_facts t
  refine congrArg (V c main_arg8) (funext fun a => Fin.ext ?_)
  match a with
  | ⟨0, _⟩ => show win2_1.index t (0 : Fin 2) * 40 + 1 * q.val = q.val; omega
  | ⟨1, _⟩ => show win2_1.index t (1 : Fin 2) * 128 + 1 * k.val = k.val; omega

/-- The bias' block at every point is the whole one-row array. -/
theorem bias_read (c : Dev nD) (t : Fin cfg2.N) (q : Fin 40) :
    iblk2 V c 2 t (ix2 (0 : Fin 1) q) = V c main_v46 (ix2 (0 : Fin 1) q) := by
  show V c main_v46 (((cfg2.win 2).blk t).view.emb (ix2 (0 : Fin 1) q)) = V c main_v46 (ix2 (0 : Fin 1) q)
  obtain ⟨-, -, -, -, e0, e1, -⟩ := idx_facts t
  refine congrArg (V c main_v46) (funext fun a => Fin.ext ?_)
  match a with
  | ⟨0, _⟩ => show win2_2.index t (0 : Fin 2) * 1 + 1 * 0 = 0; omega
  | ⟨1, _⟩ => show win2_2.index t (1 : Fin 2) * 40 + 1 * q.val = q.val; omega

/-- Entry (p, q) of the output's block at point t is entry (2000·t + p, q) of the output array. -/
theorem out_emb (t : Fin cfg2.N) (p : Fin 2000) (q : Fin 40) :
    ((cfg2.win 3).blk t).view.emb (ix2 p q) = (ix2 (rowOf t p) q : S100000x40.Idx) := by
  obtain ⟨-, -, -, -, -, -, e0, e1⟩ := idx_facts t
  refine funext fun a => Fin.ext ?_
  match a with
  | ⟨0, _⟩ => show win2_3.index t (0 : Fin 2) * 2000 + 1 * p.val = t.val * 2000 + p.val; omega
  | ⟨1, _⟩ => show win2_3.index t (1 : Fin 2) * 40 + 1 * q.val = q.val; omega

/-- WHAT POINT t WRITES BACK is block t of the classifier's output, as one function of the three arrays the region
    finds: at (p, q) of the block, the product of row 2000·t + p of the features with row q of the weights, plus the
    bias at q. -/
theorem flushed_eq (c : Dev nD) (t : Fin cfg2.N) :
    (dat2 (F := Ideal) V c).flushed 3 t = ((cfg2.win 3).blk t).view.read (Elt Ideal)
      (Cert.Sage.head (V c main_v45) (V c main_arg8) (fun q => V c main_v46 (ix2 (0 : Fin 1) q))) := by
  show (cfg2.win 3).cut (grid2.coords t) ((dat2 V c).after 3 t) = _
  rw [after2_3]
  unfold out2_3
  rw [View.canon_unit_zero zeros2]
  simp only [View.ld_unit_zero (S := S2000x128) zeros2, View.ld_unit_zero (S := S40x128) zeros2, View.ld_unit_zero (S := S1x40) zeros2]
  refine funext fun (j : S2000x40.Idx) => ?_
  obtain ⟨p, q, rfl⟩ : ∃ (p : Fin 2000) (q : Fin 40), j = ix2 p q := ⟨j 0, j 1, eq_ix2 j⟩
  show k2_pay1 (iblk2 V c 0 t) (iblk2 V c 1 t) (iblk2 V c 2 t) (ix2 p q)
    = Cert.Sage.head (V c main_v45) (V c main_arg8) (fun q => V c main_v46 (ix2 (0 : Fin 1) q)) (((cfg2.win 3).blk t).view.emb (ix2 p q))
  rw [out_emb, Cert.Sage.head_ix2]
  unfold Cert.Sage.headAt
  refine (pay_apply _ _ _ p q).trans ?_
  rw [bias_read]
  exact congrArg (· + V c main_v46 (ix2 (0 : Fin 1) q)) (Finset.sum_congr rfl fun k _ => by rw [feat_read, wts_read])

/-- An index of the output array is in point t's block iff each coordinate is in the block's range on its axis. -/
theorem mem_blk (t : Fin cfg2.N) (i : S100000x40.Idx) :
    i ∈ ((cfg2.win 3).blk t).view.set ↔ ∀ a : Fin 2, win2_3.index t a * S2000x40.size a ≤ (i a).val ∧ (i a).val < win2_3.index t a * S2000x40.size a + S2000x40.size a := by
  show i ∈ ((View.whole main_v47).slice (win2_3.rect t)).set ↔ _
  rw [View.set_slice_whole, Rect.mem_set_unit]
  exact Iff.rfl

/-- Every entry of the output array is in some point's block: row r is in the block of point r / 2000. -/
theorem cover (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 50 := N_2
  let t : Fin cfg2.N := ⟨(i 0).val / 2000, by rw [hN]; omega⟩
  obtain ⟨-, -, -, -, -, -, e0, e1⟩ := idx_facts t
  have ht : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 40 ≤ (i 1).val ∧ (i 1).val < win2_3.index t (1 : Fin 2) * 40 + 40; omega

theorem final (c : Dev nD) :
    (dat2 (F := Ideal) V c).arrAt 3 cfg2.N
      = Cert.Sage.head (V c main_v45) (V c main_arg8) (fun q => V c main_v46 (ix2 (0 : Fin 1) q)) :=
  (dat2 (F := Ideal) V c).arrAt_eq_of_cover 3 _ (fun t _ => flushed_eq V c t) cover

end Cert.KernelIdeal.Region2

end
-- ==== Proof.Agg.lean ====
/-
  The neighbour mean both programs compute on the host, as ONE function of a feature array and the edge list.

  For an edge list `e` (row 0 the sources, row 1 the destinations; a negative source index wraps once by the node
  count) it gathers the source rows, sums them into their destination rows, counts the edges into each destination,
  and divides each row by `max(count, 1)`. Both programs apply exactly this chain of host operations, so it is
  carried as one function and never opened; the two programs' spellings differ only in which program's copy of the
  gather / scatter dimension records they name, and those copies are the same records (`agg_eq`).
-/
import proofs.«170277_j13597866459807_1_alg».proof.Proof.Gen.KernelIdeal
import proofs.«170277_j13597866459807_1_alg».proof.Proof.Gen.ReferenceIdeal
import Idealize.ShloMosaic.PureOps.Ideal

noncomputable section

namespace Cert.Sage

open Idealize.ShloMosaic

/-- The neighbour mean, in the kernel program's spelling. -/
def aggK (x : FVec Ideal Cert.KernelIdeal.S100000x128 .f32) (e : IVec Cert.KernelIdeal.S2x1600000 32) : FVec Ideal Cert.KernelIdeal.S100000x128 .f32 :=
  open Cert.KernelIdeal Cert.KernelIdeal.Facts₀ in
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 x (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

/-- The neighbour mean, in the reference program's spelling. -/
def aggR (x : FVec Ideal Cert.ReferenceIdeal.S100000x128 .f32) (e : IVec Cert.ReferenceIdeal.S2x1600000 32) : FVec Ideal Cert.ReferenceIdeal.S100000x128 .f32 :=
  open Cert.ReferenceIdeal Cert.ReferenceIdeal.Facts₀ in
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 x (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

/-- The two spellings are one function: the dimension records of the two printed programs are the same records. -/
theorem agg_eq (x : FVec Ideal Cert.KernelIdeal.S100000x128 .f32) (e : IVec Cert.KernelIdeal.S2x1600000 32) : aggK x e = aggR x e := by
  unfold aggK aggR
  rfl

end Cert.Sage

end
-- ==== Proof.Net.lean ====
/-
  The whole network as one function of its ten arguments, over an abstract neighbour mean `agg`:
      h₁ = layer (agg x e) x Wl₁ bl₁ Wr₁,   h₂ = layer (agg h₁ e) h₁ Wl₂ bl₂ Wr₂,   logits = head h₂ Wout bout.
  Each program's result is this function at its own spelling of the neighbour mean.
-/
import proofs.«170277_j13597866459807_1_alg».proof.Proof.Spec

noncomputable section

namespace Cert.Sage

open Idealize.ShloMosaic Idealize.ShloMosaic.ValueIdx

/-- the edge list: row 0 sources, row 1 destinations -/
abbrev SE : Shape := ⟨2, ![2, 1600000]⟩

/-- A rank-1 bias as a function of its one coordinate. -/
def bias128 (b : (⟨1, ![128]⟩ : Shape).Idx → EReal) : Fin 128 → EReal := fun q => b (ix1 q)
/-- The classifier's rank-1 bias as a function of its one coordinate. -/
def bias40 (b : (⟨1, ![40]⟩ : Shape).Idx → EReal) : Fin 40 → EReal := fun q => b (ix1 q)

/-- The first layer's output. -/
def hidden1 (agg : (SNxD.Idx → EReal) → (SE.Idx → BitVec 32) → (SNxD.Idx → EReal))
    (x : SNxD.Idx → EReal) (e : SE.Idx → BitVec 32) (Wl1 : SDxD.Idx → EReal) (bl1 : (⟨1, ![128]⟩ : Shape).Idx → EReal)
    (Wr1 : SDxD.Idx → EReal) : SNxD.Idx → EReal :=
  sage (agg x e) x Wl1 (bias128 bl1) Wr1

/-- The network's logits. -/
def logits (agg : (SNxD.Idx → EReal) → (SE.Idx → BitVec 32) → (SNxD.Idx → EReal))
    (x : SNxD.Idx → EReal) (e : SE.Idx → BitVec 32) (Wl1 : SDxD.Idx → EReal) (bl1 : (⟨1, ![128]⟩ : Shape).Idx → EReal)
    (Wr1 : SDxD.Idx → EReal) (Wl2 : SDxD.Idx → EReal) (bl2 : (⟨1, ![128]⟩ : Shape).Idx → EReal) (Wr2 : SDxD.Idx → EReal)
    (Wo : SCxD.Idx → EReal) (bo : (⟨1, ![40]⟩ : Shape).Idx → EReal) : SNxC.Idx → EReal :=
  head (sage (agg (hidden1 agg x e Wl1 bl1 Wr1) e) (hidden1 agg x e Wl1 bl1 Wr1) Wl2 (bias128 bl2) Wr2) Wo (bias40 bo)

end Cert.Sage

end
-- ==== Proof.KernelFold.lean ====
/-
  The kernel program's result, read back through the fold of @main's segment boundaries.

  @main is three host stretches, each followed by a kernel region. Walking the fold backwards from the result array:
  the last region leaves the head of its three windows; the second leaves the second layer of its five; the first
  leaves the first layer of its five. Each window's array is either an argument no operation has written (so it
  holds what the launch memory held), a bias cast to one row by the host stretch just before the region, the output
  of the previous region, or the neighbour mean the host stretch recomputes from the previous region's output and the
  edge list's two rows (cut by the first stretch and left alone since). Composed, that is the network's logits of
  the ten arguments.
-/
import proofs.«170277_j13597866459807_1_alg».proof.Proof.Gen.KernelIdeal.Frame
import proofs.«170277_j13597866459807_1_alg».proof.Proof.Region0
import proofs.«170277_j13597866459807_1_alg».proof.Proof.Region1
import proofs.«170277_j13597866459807_1_alg».proof.Proof.Region2
import proofs.«170277_j13597866459807_1_alg».proof.Proof.Agg
import proofs.«170277_j13597866459807_1_alg».proof.Proof.Net
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

open Idealize.ShloMosaic.StableHlo

/-- No operation of the line writes the buffer: the line leaves it as it was. -/
local macro "unwritten" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## Small facts: a rank-1 bias cast to one row and read along the row; a layer and the head at equal operands -/

private theorem row_of_cast128 (x : (⟨1, ![128]⟩ : Shape).Idx → EReal) (h : (⟨1, ![128]⟩ : Shape).ShapeCasts ⟨2, ![1, 128]⟩) :
    (fun q : Fin 128 => shapeCast ⟨2, ![1, 128]⟩ x h (ix2 (0 : Fin 1) q)) = Cert.Sage.bias128 x := by
  funext q; exact shapeCast_a_1a_apply x h 0 q

private theorem row_of_cast40 (x : (⟨1, ![40]⟩ : Shape).Idx → EReal) (h : (⟨1, ![40]⟩ : Shape).ShapeCasts ⟨2, ![1, 40]⟩) :
    (fun q : Fin 40 => shapeCast ⟨2, ![1, 40]⟩ x h (ix2 (0 : Fin 1) q)) = Cert.Sage.bias40 x := by
  funext q; exact shapeCast_a_1a_apply x h 0 q

private theorem sage_congr {a a' x x' : Cert.Sage.SNxD.Idx → EReal} {Wl Wl' Wr Wr' : Cert.Sage.SDxD.Idx → EReal} {bl bl' : Fin 128 → EReal}
    (ha : a = a') (hx : x = x') (hWl : Wl = Wl') (hbl : bl = bl') (hWr : Wr = Wr') :
    Cert.Sage.sage a x Wl bl Wr = Cert.Sage.sage a' x' Wl' bl' Wr' := by
  subst ha hx hWl hbl hWr; rfl

private theorem head_congr {h h' : Cert.Sage.SNxD.Idx → EReal} {W W' : Cert.Sage.SCxD.Idx → EReal} {b b' : Fin 40 → EReal}
    (hh : h = h') (hW : W = W') (hb : b = b') : Cert.Sage.head h W b = Cert.Sage.head h' W' b' := by
  subst hh hW hb; rfl

/-! ## Boundary 1: the first host stretch, over the launch memory -/

theorem W1_arg0 (c : Dev nD) : W1 (F := Ideal) m ρ c (Proc.devRef .tc main_arg0) = (m ((c : Thread nD τ).loc main_arg0)) := by
  show StableHlo.after hostOps0 (W0 (F := Ideal) m ρ c) (Proc.devRef .tc main_arg0) = _
  unwritten hostOps0
theorem W1_arg2 (c : Dev nD) : W1 (F := Ideal) m ρ c (Proc.devRef .tc main_arg2) = (m ((c : Thread nD τ).loc main_arg2)) := by
  show StableHlo.after hostOps0 (W0 (F := Ideal) m ρ c) (Proc.devRef .tc main_arg2) = _
  unwritten hostOps0
theorem W1_arg4 (c : Dev nD) : W1 (F := Ideal) m ρ c (Proc.devRef .tc main_arg4) = (m ((c : Thread nD τ).loc main_arg4)) := by
  show StableHlo.after hostOps0 (W0 (F := Ideal) m ρ c) (Proc.devRef .tc main_arg4) = _
  unwritten hostOps0
theorem W1_arg5 (c : Dev nD) : W1 (F := Ideal) m ρ c (Proc.devRef .tc main_arg5) = (m ((c : Thread nD τ).loc main_arg5)) := by
  show StableHlo.after hostOps0 (W0 (F := Ideal) m ρ c) (Proc.devRef .tc main_arg5) = _
  unwritten hostOps0
theorem W1_arg6 (c : Dev nD) : W1 (F := Ideal) m ρ c (Proc.devRef .tc main_arg6) = (m ((c : Thread nD τ).loc main_arg6)) := by
  show StableHlo.after hostOps0 (W0 (F := Ideal) m ρ c) (Proc.devRef .tc main_arg6) = _
  unwritten hostOps0
theorem W1_arg7 (c : Dev nD) : W1 (F := Ideal) m ρ c (Proc.devRef .tc main_arg7) = (m ((c : Thread nD τ).loc main_arg7)) := by
  show StableHlo.after hostOps0 (W0 (F := Ideal) m ρ c) (Proc.devRef .tc main_arg7) = _
  unwritten hostOps0
theorem W1_arg8 (c : Dev nD) : W1 (F := Ideal) m ρ c (Proc.devRef .tc main_arg8) = (m ((c : Thread nD τ).loc main_arg8)) := by
  show StableHlo.after hostOps0 (W0 (F := Ideal) m ρ c) (Proc.devRef .tc main_arg8) = _
  unwritten hostOps0
theorem W1_arg9 (c : Dev nD) : W1 (F := Ideal) m ρ c (Proc.devRef .tc main_arg9) = (m ((c : Thread nD τ).loc main_arg9)) := by
  show StableHlo.after hostOps0 (W0 (F := Ideal) m ρ c) (Proc.devRef .tc main_arg9) = _
  unwritten hostOps0

/-- The first layer's bias, cast to one row. -/
theorem W1_v23 (c : Dev nD) :
    (fun q : Fin 128 => V1 (F := Ideal) m ρ c main_v23 (ix2 (0 : Fin 1) q)) = Cert.Sage.bias128 (m ((c : Thread nD τ).loc main_arg3)) := by
  have e : V1 (F := Ideal) m ρ c main_v23 = shapeCast S1x128 (m ((c : Thread nD τ).loc main_arg3)) shapeCasts_S128_S1x128 := by
    show StableHlo.after hostOps0 (W0 (F := Ideal) m ρ c) (Proc.devRef .tc main_v23) = _
    after_results
    rfl
  rw [e]
  exact row_of_cast128 _ _

/-- The edge list's source row. -/
theorem W1_v1 (c : Dev nD) :
    W1 (F := Ideal) m ρ c (Proc.devRef .tc main_v1)
      = shapeCast S1600000 (extractStridedSlice S1x1600000 ![0, 0] (m ((c : Thread nD τ).loc main_arg1)) slices_S2x1600000_S1x1600000_0_0) shapeCasts_S1x1600000_S1600000 := by
  show StableHlo.after hostOps0 (W0 (F := Ideal) m ρ c) (Proc.devRef .tc main_v1) = _
  after_results_simp
  rfl

/-- The edge list's destination row. -/
theorem W1_v3 (c : Dev nD) :
    W1 (F := Ideal) m ρ c (Proc.devRef .tc main_v3)
      = shapeCast S1600000 (extractStridedSlice S1x1600000 ![1, 0] (m ((c : Thread nD τ).loc main_arg1)) slices_S2x1600000_S1x1600000_1_0) shapeCasts_S1x1600000_S1600000 := by
  show StableHlo.after hostOps0 (W0 (F := Ideal) m ρ c) (Proc.devRef .tc main_v3) = _
  after_results_simp
  rfl

/-- The neighbour mean of the features. -/
theorem W1_v22 (c : Dev nD) :
    W1 (F := Ideal) m ρ c (Proc.devRef .tc main_v22) = Cert.Sage.aggK (m ((c : Thread nD τ).loc main_arg0)) (m ((c : Thread nD τ).loc main_arg1)) := by
  show StableHlo.after hostOps0 (W0 (F := Ideal) m ρ c) (Proc.devRef .tc main_v22) = _
  after_results_simp
  unfold Cert.Sage.aggK
  rfl

/-! ## Boundary 2: the first region's exit -/

/-- The first layer's output. -/
theorem W2_v24 (c : Dev nD) : W2 (F := Ideal) m ρ c (Proc.devRef .tc main_v24) = (Cert.Sage.hidden1 Cert.Sage.aggK (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ((Cert.KernelIdeal.Region0.final (V1 (F := Ideal) m ρ) c).trans ?_)
  unfold Cert.Sage.hidden1
  exact sage_congr (W1_v22 m ρ c) (W1_arg0 m ρ c) (W1_arg2 m ρ c) (W1_v23 m ρ c) (W1_arg4 m ρ c)

theorem W2_v1 (c : Dev nD) :
    W2 (F := Ideal) m ρ c (Proc.devRef .tc main_v1)
      = shapeCast S1600000 (extractStridedSlice S1x1600000 ![0, 0] (m ((c : Thread nD τ).loc main_arg1)) slices_S2x1600000_S1x1600000_0_0) shapeCasts_S1x1600000_S1600000 :=
  (W2_of_ne m ρ c main_v1 (by decide)).trans (W1_v1 m ρ c)

theorem W2_v3 (c : Dev nD) :
    W2 (F := Ideal) m ρ c (Proc.devRef .tc main_v3)
      = shapeCast S1600000 (extractStridedSlice S1x1600000 ![1, 0] (m ((c : Thread nD τ).loc main_arg1)) slices_S2x1600000_S1x1600000_1_0) shapeCasts_S1x1600000_S1600000 :=
  (W2_of_ne m ρ c main_v3 (by decide)).trans (W1_v3 m ρ c)

theorem W2_arg5 (c : Dev nD) : W2 (F := Ideal) m ρ c (Proc.devRef .tc main_arg5) = (m ((c : Thread nD τ).loc main_arg5)) :=
  (W2_of_ne m ρ c main_arg5 (by decide)).trans (W1_arg5 m ρ c)
theorem W2_arg6 (c : Dev nD) : W2 (F := Ideal) m ρ c (Proc.devRef .tc main_arg6) = (m ((c : Thread nD τ).loc main_arg6)) :=
  (W2_of_ne m ρ c main_arg6 (by decide)).trans (W1_arg6 m ρ c)
theorem W2_arg7 (c : Dev nD) : W2 (F := Ideal) m ρ c (Proc.devRef .tc main_arg7) = (m ((c : Thread nD τ).loc main_arg7)) :=
  (W2_of_ne m ρ c main_arg7 (by decide)).trans (W1_arg7 m ρ c)
theorem W2_arg8 (c : Dev nD) : W2 (F := Ideal) m ρ c (Proc.devRef .tc main_arg8) = (m ((c : Thread nD τ).loc main_arg8)) :=
  (W2_of_ne m ρ c main_arg8 (by decide)).trans (W1_arg8 m ρ c)
theorem W2_arg9 (c : Dev nD) : W2 (F := Ideal) m ρ c (Proc.devRef .tc main_arg9) = (m ((c : Thread nD τ).loc main_arg9)) :=
  (W2_of_ne m ρ c main_arg9 (by decide)).trans (W1_arg9 m ρ c)

/-! ## Boundary 3: the second host stretch -/

theorem W3_arg5 (c : Dev nD) : W3 (F := Ideal) m ρ c (Proc.devRef .tc main_arg5) = (m ((c : Thread nD τ).loc main_arg5)) := by
  refine Eq.trans ?_ (W2_arg5 m ρ c)
  show StableHlo.after hostOps1 (W2 (F := Ideal) m ρ c) (Proc.devRef .tc main_arg5) = _
  unwritten hostOps1
theorem W3_arg7 (c : Dev nD) : W3 (F := Ideal) m ρ c (Proc.devRef .tc main_arg7) = (m ((c : Thread nD τ).loc main_arg7)) := by
  refine Eq.trans ?_ (W2_arg7 m ρ c)
  show StableHlo.after hostOps1 (W2 (F := Ideal) m ρ c) (Proc.devRef .tc main_arg7) = _
  unwritten hostOps1
theorem W3_arg8 (c : Dev nD) : W3 (F := Ideal) m ρ c (Proc.devRef .tc main_arg8) = (m ((c : Thread nD τ).loc main_arg8)) := by
  refine Eq.trans ?_ (W2_arg8 m ρ c)
  show StableHlo.after hostOps1 (W2 (F := Ideal) m ρ c) (Proc.devRef .tc main_arg8) = _
  unwritten hostOps1
theorem W3_arg9 (c : Dev nD) : W3 (F := Ideal) m ρ c (Proc.devRef .tc main_arg9) = (m ((c : Thread nD τ).loc main_arg9)) := by
  refine Eq.trans ?_ (W2_arg9 m ρ c)
  show StableHlo.after hostOps1 (W2 (F := Ideal) m ρ c) (Proc.devRef .tc main_arg9) = _
  unwritten hostOps1

theorem W3_v24 (c : Dev nD) : W3 (F := Ideal) m ρ c (Proc.devRef .tc main_v24) = (Cert.Sage.hidden1 Cert.Sage.aggK (m ((c : Thread nD τ).loc main_arg0)) (m ((c : Thread nD τ).loc main_arg1)) (m ((c : Thread nD τ).loc main_arg2)) (m ((c : Thread nD τ).loc main_arg3)) (m ((c : Thread nD τ).loc main_arg4))) := by
  refine Eq.trans ?_ (W2_v24 m ρ c)
  show StableHlo.after hostOps1 (W2 (F := Ideal) m ρ c) (Proc.devRef .tc main_v24) = _
  unwritten hostOps1

/-- The second layer's bias, cast to one row. -/
theorem W3_v44 (c : Dev nD) :
    (fun q : Fin 128 => V3 (F := Ideal) m ρ c main_v44 (ix2 (0 : Fin 1) q)) = Cert.Sage.bias128 (m ((c : Thread nD τ).loc main_arg6)) := by
  have e : V3 (F := Ideal) m ρ c main_v44 = shapeCast S1x128 (m ((c : Thread nD τ).loc main_arg6)) shapeCasts_S128_S1x128 := by
    show StableHlo.after hostOps1 (W2 (F := Ideal) m ρ c) (Proc.devRef .tc main_v44) = _
    after_results
    rw [W2_arg6]
    rfl
  rw [e]
  exact row_of_cast128 _ _

/-- The neighbour mean of the first layer's output. -/
theorem W3_v43 (c : Dev nD) :
    W3 (F := Ideal) m ρ c (Proc.devRef .tc main_v43) = Cert.Sage.aggK (Cert.Sage.hidden1 Cert.Sage.aggK (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 (F := Ideal) m ρ c) (Proc.devRef .tc main_v43) = _
  after_results_simp
  rw [W2_v1, W2_v3, W2_v24]
  unfold Cert.Sage.aggK
  rfl

/-! ## Boundary 4: the second region's exit -/

/-- The second layer's output. -/
theorem W4_v45 (c : Dev nD) : W4 (F := Ideal) m ρ c (Proc.devRef .tc main_v45) = (Cert.Sage.sage (Cert.Sage.aggK (Cert.Sage.hidden1 Cert.Sage.aggK (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1))) (Cert.Sage.hidden1 Cert.Sage.aggK (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (Cert.Sage.bias128 (m ((c : Thread nD τ).loc main_arg6))) (m ((c : Thread nD τ).loc main_arg7))) := by
  refine (W4_arr m ρ c 5).trans ((Cert.KernelIdeal.Region1.final (V3 (F := Ideal) m ρ) c).trans ?_)
  exact sage_congr (W3_v43 m ρ c) (W3_v24 m ρ c) (W3_arg5 m ρ c) (W3_v44 m ρ c) (W3_arg7 m ρ c)

theorem W4_arg8 (c : Dev nD) : W4 (F := Ideal) m ρ c (Proc.devRef .tc main_arg8) = (m ((c : Thread nD τ).loc main_arg8)) :=
  (W4_of_ne m ρ c main_arg8 (by decide)).trans (W3_arg8 m ρ c)
theorem W4_arg9 (c : Dev nD) : W4 (F := Ideal) m ρ c (Proc.devRef .tc main_arg9) = (m ((c : Thread nD τ).loc main_arg9)) :=
  (W4_of_ne m ρ c main_arg9 (by decide)).trans (W3_arg9 m ρ c)

/-! ## Boundary 5: the third host stretch -/

theorem W5_v45 (c : Dev nD) : W5 (F := Ideal) m ρ c (Proc.devRef .tc main_v45) = (Cert.Sage.sage (Cert.Sage.aggK (Cert.Sage.hidden1 Cert.Sage.aggK (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1))) (Cert.Sage.hidden1 Cert.Sage.aggK (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (Cert.Sage.bias128 (m ((c : Thread nD τ).loc main_arg6))) (m ((c : Thread nD τ).loc main_arg7))) := by
  refine Eq.trans ?_ (W4_v45 m ρ c)
  show StableHlo.after hostOps2 (W4 (F := Ideal) m ρ c) (Proc.devRef .tc main_v45) = _
  unwritten hostOps2

theorem W5_arg8 (c : Dev nD) : W5 (F := Ideal) m ρ c (Proc.devRef .tc main_arg8) = (m ((c : Thread nD τ).loc main_arg8)) := by
  refine Eq.trans ?_ (W4_arg8 m ρ c)
  show StableHlo.after hostOps2 (W4 (F := Ideal) m ρ c) (Proc.devRef .tc main_arg8) = _
  unwritten hostOps2

/-- The head's bias, cast to one row. -/
theorem W5_v46 (c : Dev nD) :
    (fun q : Fin 40 => V5 (F := Ideal) m ρ c main_v46 (ix2 (0 : Fin 1) q)) = Cert.Sage.bias40 (m ((c : Thread nD τ).loc main_arg9)) := by
  have e : V5 (F := Ideal) m ρ c main_v46 = shapeCast S1x40 (m ((c : Thread nD τ).loc main_arg9)) shapeCasts_S40_S1x40 := by
    show StableHlo.after hostOps2 (W4 (F := Ideal) m ρ c) (Proc.devRef .tc main_v46) = _
    after_results
    rw [W4_arg9]
    rfl
  rw [e]
  exact row_of_cast40 _ _

/-! ## Boundary 6: the last region's exit -/

theorem result (c : Dev nD) :
    W6 (F := Ideal) m ρ c (Proc.devRef .tc main_v47)
      = Cert.Sage.logits Cert.Sage.aggK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 3).trans ((Cert.KernelIdeal.Region2.final (V5 (F := Ideal) m ρ) c).trans ?_)
  unfold Cert.Sage.logits
  exact head_congr (W5_v45 m ρ c) (W5_arg8 m ρ c) (W5_v46 m ρ c)

end Cert.KernelIdeal.Fold

end
-- ==== Proof.RefValue.lean ====
import proofs.«170277_j13597866459807_1_alg».proof.Proof.Gen.ReferenceIdeal.Run
import proofs.«170277_j13597866459807_1_alg».proof.Proof.Gen.ReferenceIdeal.Read
import proofs.«170277_j13597866459807_1_alg».proof.Proof.Agg
import proofs.«170277_j13597866459807_1_alg».proof.Proof.Net
import Idealize.ShloMosaic.Lib.Pipeline.Value
import Idealize.ShloMosaic.Lib.ValueIdx
import Idealize.ShloMosaic.Lib.ValueLayout
import Idealize.ShloMosaic.PureOps.Ideal.Laws

/-
  The reference program's result is the network of `Net.lean` at the reference's spelling of the neighbour mean.

  The reference's composed term is, twice, a layer
      max( mean · Wlᵀ + broadcast(bl) + x · Wrᵀ , 0 )
  followed by the head  h · Woᵀ + broadcast(bo).  Each is written once over variables (`layerR`, `headR`) and read
  at an entry: a product with a transposed weight matrix at (p, q) is  Σₖ a[p,k]·W[q,k];  a bias broadcast along the
  nodes reads  b[q];  the rectifier's zero array reads 0.  The bias sits between the two products, which is
  `sageAt_mid`'s order.
-/

set_option maxRecDepth 16384

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-! ## The reference's layer and head over variables -/

/-- One layer as the reference composes it: both products against transposed weights, the bias added after the
    first product, the rectifier last. -/
def layerR (mean x : FVec Ideal S100000x128 .f32) (Wl : FVec Ideal S128x128 .f32) (bl : FVec Ideal S128 .f32)
    (Wr : FVec Ideal S128x128 .f32) : FVec Ideal S100000x128 .f32 :=
  maximumf (addf (addf (Host.dotGeneral dot_S100000x128_S128x128_S100000x128_1_0_0_1_n_n none mean (transpose S128x128 [1, 0] Wl transposes_S128x128_S128x128_1_0)) (broadcastInDim S100000x128 ![0, 1] bcast_S1x128_S100000x128_0_1 (broadcastInDim S1x128 ![1] bcast_S128_S1x128_1 bl))) (Host.dotGeneral dot_S100000x128_S128x128_S100000x128_1_0_0_1_n_n none x (transpose S128x128 [1, 0] Wr transposes_S128x128_S128x128_1_0))) (broadcastInDim S100000x128 ![] bcast_S_S100000x128 (constant (F := Ideal) S_ .f32 0x00000000#32))

/-- The classifier head as the reference composes it. -/
def headR (h : FVec Ideal S100000x128 .f32) (Wo : FVec Ideal S40x128 .f32) (bo : FVec Ideal S40 .f32) :
    FVec Ideal S100000x40 .f32 :=
  addf (Host.dotGeneral dot_S100000x128_S128x40_S100000x40_1_0_0_1_n_n none h (transpose S128x40 [1, 0] Wo transposes_S40x128_S128x40_1_0)) (broadcastInDim S100000x40 ![0, 1] bcast_S1x40_S100000x40_0_1 (broadcastInDim S1x40 ![1] bcast_S40_S1x40_1 bo))

/-- The reference's whole network over variables. -/
def netR (x : FVec Ideal S100000x128 .f32) (e : IVec S2x1600000 32) (Wl1 : FVec Ideal S128x128 .f32) (bl1 : FVec Ideal S128 .f32)
    (Wr1 : FVec Ideal S128x128 .f32) (Wl2 : FVec Ideal S128x128 .f32) (bl2 : FVec Ideal S128 .f32) (Wr2 : FVec Ideal S128x128 .f32)
    (Wo : FVec Ideal S40x128 .f32) (bo : FVec Ideal S40 .f32) : FVec Ideal S100000x40 .f32 :=
  headR (layerR (Cert.Sage.aggR (layerR (Cert.Sage.aggR x e) x Wl1 bl1 Wr1) e) (layerR (Cert.Sage.aggR x e) x Wl1 bl1 Wr1) Wl2 bl2 Wr2) Wo bo

/-! ## Each operation at an entry -/

/-- A nodes × 128 array times a 128 × 128 array, one contracted axis: the entry (p, q) is Σₖ l[p,k]·r[k,q]. -/
theorem dotD_apply (l : FVec Ideal S100000x128 .f32) (r : FVec Ideal S128x128 .f32) (p : Fin 100000) (q : Fin 128) :
    Host.dotGeneral dot_S100000x128_S128x128_S100000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact Cert.ReferenceIdeal.Read.lhs_main_v24_0 _ _
    | ⟨1, _⟩ => exact (Cert.ReferenceIdeal.Read.lhs_main_v24_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (Cert.ReferenceIdeal.Read.rhs_main_v24_0 _ _).trans hk
    | ⟨1, _⟩ => exact Cert.ReferenceIdeal.Read.rhs_main_v24_1 _ _)
  rw [el, er]

/-- A nodes × 128 array times a 128 × 40 array: the entry (p, q) is Σₖ l[p,k]·r[k,q]. -/
theorem dotC_apply (l : FVec Ideal S100000x128 .f32) (r : FVec Ideal S128x40 .f32) (p : Fin 100000) (q : Fin 40) :
    Host.dotGeneral dot_S100000x128_S128x40_S100000x40_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S100000x128_S128x40_S100000x40_1_0_0_1_n_n 128 rfl rfl).symm]
  refine Finset.sum_congr rfl fun k _ => ?_
  have hk := ValueIdx.contrEquiv1_symm_val dot_S100000x128_S128x40_S100000x40_1_0_0_1_n_n 128 rfl rfl k
  have el : dot_S100000x128_S128x40_S100000x40_1_0_0_1_n_n.lhsIdx (ix2 p q) ((ValueIdx.contrEquiv1 dot_S100000x128_S128x40_S100000x40_1_0_0_1_n_n 128 rfl rfl).symm k) = ix2 p k := funext fun a => Fin.ext (by
    match a with
    | ⟨0, _⟩ => exact Cert.ReferenceIdeal.Read.lhs_main_v61_0 _ _
    | ⟨1, _⟩ => exact (Cert.ReferenceIdeal.Read.lhs_main_v61_1 _ _).trans hk)
  have er : dot_S100000x128_S128x40_S100000x40_1_0_0_1_n_n.rhsIdx (ix2 p q) ((ValueIdx.contrEquiv1 dot_S100000x128_S128x40_S100000x40_1_0_0_1_n_n 128 rfl rfl).symm k) = ix2 k q := funext fun a => Fin.ext (by
    match a with
    | ⟨0, _⟩ => exact (Cert.ReferenceIdeal.Read.rhs_main_v61_0 _ _).trans hk
    | ⟨1, _⟩ => exact Cert.ReferenceIdeal.Read.rhs_main_v61_1 _ _)
  rw [el, er]

/-- A transposed square weight matrix at (k, q) is the matrix at (q, k). -/
theorem transposeD_apply (W : FVec Ideal S128x128 .f32) (k q : Fin 128) :
    transpose S128x128 [1, 0] W transposes_S128x128_S128x128_1_0 (ix2 k q) = W (ix2 q k) :=
  transpose_apply [1, 0] W transposes_S128x128_S128x128_1_0 (ix2 k q) (ix2 q k) (fun b => match b with
    | ⟨0, _⟩ => rfl
    | ⟨1, _⟩ => rfl)

/-- The transposed classifier matrix at (k, q) is the matrix at (q, k). -/
theorem transposeC_apply (W : FVec Ideal S40x128 .f32) (k : Fin 128) (q : Fin 40) :
    transpose S128x40 [1, 0] W transposes_S40x128_S128x40_1_0 (ix2 k q) = W (ix2 q k) :=
  transpose_apply [1, 0] W transposes_S40x128_S128x40_1_0 (ix2 k q) (ix2 q k) (fun b => match b with
    | ⟨0, _⟩ => rfl
    | ⟨1, _⟩ => rfl)

/-- A product against a transposed square weight matrix: the entry (p, q) is Σₖ l[p,k]·W[q,k]. -/
theorem dotDT_apply (l : FVec Ideal S100000x128 .f32) (W : FVec Ideal S128x128 .f32) (p : Fin 100000) (q : Fin 128) :
    Host.dotGeneral dot_S100000x128_S128x128_S100000x128_1_0_0_1_n_n none l (transpose S128x128 [1, 0] W transposes_S128x128_S128x128_1_0) (ix2 p q)
      = ∑ k : Fin 128, l (ix2 p k) * W (ix2 q k) :=
  (dotD_apply l _ p q).trans (Finset.sum_congr rfl fun k _ => congrArg (l (ix2 p k) * ·) (transposeD_apply W k q))

/-- A product against the transposed classifier matrix: the entry (p, q) is Σₖ l[p,k]·W[q,k]. -/
theorem dotCT_apply (l : FVec Ideal S100000x128 .f32) (W : FVec Ideal S40x128 .f32) (p : Fin 100000) (q : Fin 40) :
    Host.dotGeneral dot_S100000x128_S128x40_S100000x40_1_0_0_1_n_n none l (transpose S128x40 [1, 0] W transposes_S40x128_S128x40_1_0) (ix2 p q)
      = ∑ k : Fin 128, l (ix2 p k) * W (ix2 q k) :=
  (dotC_apply l _ p q).trans (Finset.sum_congr rfl fun k _ => congrArg (l (ix2 p k) * ·) (transposeC_apply W k q))

/-- A 128-bias broadcast along the nodes reads the bias at the feature. -/
theorem biasD_apply (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) :=
  (broadcastInDim_apply _ bcast_S1x128_S100000x128_0_1 (broadcastInDim S1x128 ![1] bcast_S128_S1x128_1 b) (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans
  (broadcastInDim_apply _ bcast_S128_S1x128_1 b (ix2 (0 : Fin 1) q) (ix1 q) (fun a => match a with
    | ⟨0, _⟩ => by show q.val = if (128 : Nat) = 1 then 0 else q.val; rw [if_neg (by decide)]))

/-- A 40-bias broadcast along the nodes reads the bias at the class. -/
theorem biasC_apply (b : FVec Ideal S40 .f32) (p : Fin 100000) (q : Fin 40) :
    broadcastInDim S100000x40 ![0, 1] bcast_S1x40_S100000x40_0_1 (broadcastInDim S1x40 ![1] bcast_S40_S1x40_1 b) (ix2 p q) = b (ix1 q) :=
  (broadcastInDim_apply _ bcast_S1x40_S100000x40_0_1 (broadcastInDim S1x40 ![1] bcast_S40_S1x40_1 b) (ix2 p q) (ix2 (0 : Fin 1) q) (fun a => match a with
    | ⟨0, _⟩ => by show 0 = if (1 : Nat) = 1 then 0 else p.val; rw [if_pos rfl]
    | ⟨1, _⟩ => by show q.val = if (40 : Nat) = 1 then 0 else q.val; rw [if_neg (by decide)])).trans
  (broadcastInDim_apply _ bcast_S40_S1x40_1 b (ix2 (0 : Fin 1) q) (ix1 q) (fun a => match a with
    | ⟨0, _⟩ => by show q.val = if (40 : Nat) = 1 then 0 else q.val; rw [if_neg (by decide)]))

/-- The rectifier's zero array is 0 at every entry. -/
theorem zeroD_apply (i : S100000x128.Idx) :
    broadcastInDim S100000x128 ![] bcast_S_S100000x128 (constant (F := Ideal) S_ .f32 0x00000000#32) i = 0 :=
  (broadcastInDim_apply _ bcast_S_S100000x128 (constant (F := Ideal) S_ .f32 0x00000000#32) i ix0 (fun a => a.elim0)).trans
    Ideal.ofBits_zero_f32

/-! ## The layer and the head are the specification's -/

theorem layerR_eq (mean x : FVec Ideal S100000x128 .f32) (Wl : FVec Ideal S128x128 .f32) (bl : FVec Ideal S128 .f32)
    (Wr : FVec Ideal S128x128 .f32) :
    layerR mean x Wl bl Wr = Cert.Sage.sage mean x Wl (Cert.Sage.bias128 bl) Wr := by
  funext i
  obtain ⟨p, q, rfl⟩ : ∃ (p : Fin 100000) (q : Fin 128), i = ix2 p q := ⟨i 0, i 1, eq_ix2 i⟩
  rw [Cert.Sage.sage_ix2, ← Cert.Sage.sageAt_mid]
  unfold layerR
  rw [maximumf_apply, addf_apply, addf_apply, dotDT_apply, dotDT_apply, biasD_apply, zeroD_apply]
  rfl

theorem headR_eq (h : FVec Ideal S100000x128 .f32) (Wo : FVec Ideal S40x128 .f32) (bo : FVec Ideal S40 .f32) :
    headR h Wo bo = Cert.Sage.head h Wo (Cert.Sage.bias40 bo) := by
  funext i
  obtain ⟨p, q, rfl⟩ : ∃ (p : Fin 100000) (q : Fin 40), i = ix2 p q := ⟨i 0, i 1, eq_ix2 i⟩
  rw [Cert.Sage.head_ix2]
  unfold headR Cert.Sage.headAt
  rw [addf_apply, dotCT_apply, biasC_apply]
  rfl

/-- The reference's network over variables is the specification's at the reference's neighbour mean. -/
theorem netR_eq (x : FVec Ideal S100000x128 .f32) (e : IVec S2x1600000 32) (Wl1 : FVec Ideal S128x128 .f32) (bl1 : FVec Ideal S128 .f32)
    (Wr1 : FVec Ideal S128x128 .f32) (Wl2 : FVec Ideal S128x128 .f32) (bl2 : FVec Ideal S128 .f32) (Wr2 : FVec Ideal S128x128 .f32)
    (Wo : FVec Ideal S40x128 .f32) (bo : FVec Ideal S40 .f32) :
    netR x e Wl1 bl1 Wr1 Wl2 bl2 Wr2 Wo bo = Cert.Sage.logits Cert.Sage.aggR x e Wl1 bl1 Wr1 Wl2 bl2 Wr2 Wo bo := by
  unfold netR Cert.Sage.logits Cert.Sage.hidden1
  rw [headR_eq, layerR_eq, layerR_eq]

/-! ## The composed term is that network -/

/-- The reference's composed result term is `netR` of the ten arguments: the same text. -/
theorem res_eq_netR (m : (ℓ : Loc nD τ sig) → Buf (Elt Ideal) ℓ) (c : Dev nD) :
    Cert.ReferenceIdeal.Value.res_main_v64 (F := Ideal) m c = netR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Cert.ReferenceIdeal.Value.res_main_v64 netR headR layerR Cert.Sage.aggR
  rfl

theorem result (m : (ℓ : Loc nD τ sig) → Buf (Elt Ideal) ℓ) (c : Dev nD) :
    Cert.ReferenceIdeal.Value.res_main_v64 (F := Ideal) m c
      = Cert.Sage.logits Cert.Sage.aggR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (res_eq_netR m c).trans (netR_eq _ _ _ _ _ _ _ _ _ _)

end Cert.ReferenceIdeal.RefValue

end
-- ==== Proof.lean ====
/-
  Two mean-aggregating graph layers and a linear classifier head, computed by three tiled kernels around host
  gather / scatter code, against the same network written as plain array code.

  At the ideal instance both programs compute, entry by entry,
      h₁ = relu(mean(x)·Wl₁ᵀ + x·Wr₁ᵀ + bl₁),  h₂ = relu(mean(h₁)·Wl₂ᵀ + h₁·Wr₂ᵀ + bl₂),  logits = h₂·Woutᵀ + bout,
  where `mean` is the shared neighbour mean over the edge list. The kernels cast their operands to a narrower float
  format before the matrix unit (the identity on extended reals), transpose the weights in the body where the
  reference transposes them on the host, tile the node axis in 50 blocks of 2000 rows (the contraction axis is never
  cut, so each output block is a restriction of the whole-array function), and add the bias after both products
  where the reference adds it between them (addition on the extended reals is commutative and associative, so no
  finiteness is used). The neighbour mean is the same chain of host operations in both programs and is never opened.
  The ledger of the idealization is empty, so `preserves` is trivial; the word-level kernel needs only its frame.
-/
import proofs.«170277_j13597866459807_1_alg».proof.Defs
import proofs.«170277_j13597866459807_1_alg».proof.Proof.Gen.Kernel
import proofs.«170277_j13597866459807_1_alg».proof.Proof.Gen.Kernel.Frame
import proofs.«170277_j13597866459807_1_alg».proof.Proof.Gen.KernelIdeal
import proofs.«170277_j13597866459807_1_alg».proof.Proof.Gen.KernelIdeal.Frame
import proofs.«170277_j13597866459807_1_alg».proof.Proof.Gen.ReferenceIdeal
import proofs.«170277_j13597866459807_1_alg».proof.Proof.Gen.ReferenceIdeal.Run
import proofs.«170277_j13597866459807_1_alg».proof.Proof.Gen.Pre_finite_inputs
import proofs.«170277_j13597866459807_1_alg».proof.Proof.KernelRun
import proofs.«170277_j13597866459807_1_alg».proof.Proof.KernelFold
import proofs.«170277_j13597866459807_1_alg».proof.Proof.RefValue
import proofs.«170277_j13597866459807_1_alg».proof.Proof.Agg
import proofs.«170277_j13597866459807_1_alg».proof.Proof.Net
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the network's logits of the (agreeing) arguments; the two spellings of
    the neighbour mean are one function. -/
theorem algebraic : Cert.algebraic_KernelIdeal_ReferenceIdeal := by
  intro m ρ m' ρ' _ hagree
  refine ⟨fun c => Cert.Sage.logits Cert.Sage.aggK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.result m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result m' c]
    obtain ⟨h0, h1, h2, h3, h4, h5, h6, h7, h8, h9⟩ := hagree c
    rw [h0, h1, h2, h3, h4, h5, h6, h7, h8, h9]
    have hagg : Cert.Sage.aggR = Cert.Sage.aggK := funext fun x => funext fun e => (Cert.Sage.agg_eq x e).symm
    rw [hagg]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
